-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S262144x256 : Shape := ⟨2, ![262144, 256]⟩
abbrev S262144x3 : Shape := ⟨2, ![262144, 3]⟩
abbrev S4 : Shape := ⟨1, ![4]⟩
abbrev S256x256 : Shape := ⟨2, ![256, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_arg10 : FVec F S256x256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S1024x256 .f32) (main_arg1 : FVec F S262144x256 .f32) (main_arg2 : IVec S262144x3 32) (main_arg3 : IVec S4 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S1024x256 : Shape := ⟨2, ![1024, 256]⟩
abbrev S262144x256 : Shape := ⟨2, ![262144, 256]⟩
abbrev S262144x3 : Shape := ⟨2, ![262144, 3]⟩
abbrev S4 : Shape := ⟨1, ![4]⟩
abbrev S256x256 : Shape := ⟨2, ![256, 256]⟩
abbrev S256 : Shape := ⟨1, ![256]⟩
abbrev S1x256 : Shape := ⟨2, ![1, 256]⟩
abbrev S4x256x256 : Shape := ⟨3, ![4, 256, 256]⟩
abbrev S4x65536x256 : Shape := ⟨3, ![4, 65536, 256]⟩
abbrev S1x4096x256 : Shape := ⟨3, ![1, 4096, 256]⟩
abbrev S1x256x256 : Shape := ⟨3, ![1, 256, 256]⟩
abbrev S4096x256 : Shape := ⟨2, ![4096, 256]⟩

abbrev nBuf : Space → Nat
  | .hbm => 16
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S262144x256, .f32⟩
  | .hbm, ⟨2, _⟩ => ⟨S262144x3, .i32⟩
  | .hbm, ⟨3, _⟩ => ⟨S4, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1024x256, .f32⟩
  | .hbm, ⟨13, _⟩ => ⟨S4x256x256, .f32⟩
  | .hbm, ⟨14, _⟩ => ⟨S4x65536x256, .f32⟩
  | .hbm, ⟨15, _⟩ => ⟨S4x65536x256, .f32⟩
  | .local _ .vmem, ⟨0, _⟩ => ⟨S1024x256, .f32⟩
  | .local _ .vmem, ⟨1, _⟩ => ⟨S256x256, .f32⟩
  | .local _ .vmem, ⟨2, _⟩ => ⟨S256, .f32⟩
  | .local _ .vmem, ⟨3, _⟩ => ⟨S256x256, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S1024x256, .f32⟩
  | .local _ .vmem, ⟨10, _⟩ => ⟨S1x4096x256, .f32⟩
  | .local _ .vmem, ⟨11, _⟩ => ⟨S1x4096x256, .f32⟩
  | .local _ .vmem, ⟨12, _⟩ => ⟨S1x256x256, .f32⟩
  | .local _ .vmem, ⟨13, _⟩ => ⟨S1x256x256, .f32⟩
  | .local _ .vmem, ⟨14, _⟩ => ⟨S1x4096x256, .f32⟩
  | .local _ .vmem, ⟨15, _⟩ => ⟨S1x4096x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S4x256x256 : S1024x256.ShapeCasts S4x256x256
  shapeCasts_S262144x256_S4x65536x256 : S262144x256.ShapeCasts S4x65536x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S4096x256_S1x4096x256 : S4096x256.ShapeCasts S1x4096x256
  dot_S1024x256_S256x256_S1024x256_1_0_0_1_n_n_wf : DotDims.WF S1024x256 S256x256 S1024x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S1024x256.size a
  hwx0_9 : ∀ i : grid0.Coords, EltTy.bits .f32 = 32 ∨ (Rect.block (s := S1024x256) S1024x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S4x65536x256.size a
  hwx1_0 : ∀ i : grid1.Coords, EltTy.bits .f32 = 32 ∨ (Rect.block (s := S4x65536x256) S1x4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x256x256.size a
  hwx1_1 : ∀ i : grid1.Coords, EltTy.bits .f32 = 32 ∨ (Rect.block (s := S4x256x256) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x65536x256.size a
  hwx1_2 : ∀ i : grid1.Coords, EltTy.bits .f32 = 32 ∨ (Rect.block (s := S4x65536x256) S1x4096x256.size (cc1_transform_2 i) (hinb1_2 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1024x256.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v2) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x256 : Shape := ⟨2, ![1024, 256]⟩
abbrev S262144x256 : Shape := ⟨2, ![262144, 256]⟩
abbrev S262144x3 : Shape := ⟨2, ![262144, 3]⟩
abbrev S4 : Shape := ⟨1, ![4]⟩
abbrev S256x256 : Shape := ⟨2, ![256, 256]⟩
abbrev S256 : Shape := ⟨1, ![256]⟩
abbrev S1x256 : Shape := ⟨2, ![1, 256]⟩
abbrev S_ : Shape := ⟨0, ![]⟩
abbrev S4x256x256 : Shape := ⟨3, ![4, 256, 256]⟩
abbrev S4x65536x256 : Shape := ⟨3, ![4, 65536, 256]⟩

abbrev nBuf : Space → Nat
  | .hbm => 44
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S262144x256, .f32⟩
  | .hbm, ⟨2, _⟩ => ⟨S262144x3, .i32⟩
  | .hbm, ⟨3, _⟩ => ⟨S4, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S256x256, .f32⟩
  | .hbm, ⟨21, _⟩ => ⟨S1024x256, .f32⟩
  | .hbm, ⟨22, _⟩ => ⟨S1x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S256x256, .f32⟩
  | .hbm, ⟨29, _⟩ => ⟨S1024x256, .f32⟩
  | .hbm, ⟨30, _⟩ => ⟨S1x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S256x256, .f32⟩
  | .hbm, ⟨37, _⟩ => ⟨S1024x256, .f32⟩
  | .hbm, ⟨38, _⟩ => ⟨S1x256, .f32⟩
  | .hbm, ⟨39, _⟩ => ⟨S1024x256, .f32⟩
  | .hbm, ⟨40, _⟩ => ⟨S1024x256, .f32⟩
  | .hbm, ⟨41, _⟩ => ⟨S4x256x256, .f32⟩
  | .hbm, ⟨42, _⟩ => ⟨S4x65536x256, .f32⟩
  | .hbm, ⟨43, _⟩ => ⟨S4x65536x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  shapeCasts_S1024x256_S4x256x256 : S1024x256.ShapeCasts S4x256x256
  shapeCasts_S262144x256_S4x65536x256 : S262144x256.ShapeCasts S4x65536x256
  dot_S1024x256_S256x256_S1024x256_1_0_0_1_n_n_wf : DotDims.WF S1024x256 S256x256 S1024x256 [1] [0] [0] [1] [] []
  dot_S4x65536x256_S4x256x256_S4x65536x256_2_2_1_1_0_0_wf : DotDims.WF S4x65536x256 S4x256x256 S4x65536x256 [2] [2] [1] [1] [0] [0]

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S4x65536x256_S4x256x256_S4x65536x256_2_2_1_1_0_0 : DotDims S4x65536x256 S4x256x256 S4x65536x256 where
  lhsContracting := [2]
  rhsContracting := [2]
  lhsNonContracting := [1]
  rhsNonContracting := [1]
  lhsBatch := [0]
  rhsBatch := [0]
  wf := dot_S4x65536x256_S4x256x256_S4x65536x256_2_2_1_1_0_0_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.MlpLayer.lean ====
/-
  One layer of the perceptron, x ↦ x · Wᵀ + b on a [1024, 256] activation with a [256, 256] weight and a [256] bias,
  written two ways: with the vector unit's product into a zero accumulator and the bias as a row vector broadcast down
  the rows, and with the host's product and the bias broadcast along a new leading axis.  On the extended reals the two
  are one function: both products are the same plain sum over the contracted coordinate, and both broadcasts read the
  bias at the column.  Likewise the zero a rectifier compares against is the same array either way.
-/
import Idealize.ShloMosaic.Lib.ValueIdx
import Idealize.ShloMosaic.Lib.Pipeline.Value
import Idealize.ShloMosaic.PureOps.Ideal.Laws
import proofs.«140502_j9680856285722_1_alg».proof.Proof.LibMatmulPlain

noncomputable section

namespace Cert.Mlp

open Idealize.ShloMosaic Idealize.ShloMosaic.ValueIdx

/-- activations: 1024 rows (4 images × 256 queries) of 256 features -/
abbrev SX : Shape := ⟨2, ![1024, 256]⟩
/-- a weight matrix, output feature × input feature -/
abbrev SW : Shape := ⟨2, ![256, 256]⟩
/-- a bias -/
abbrev SB : Shape := ⟨1, ![256]⟩
/-- a bias as one row -/
abbrev SB1 : Shape := ⟨2, ![1, 256]⟩
/-- a scalar -/
abbrev S0 : Shape := ⟨0, ![]⟩

/-- The vector unit's product into the zero accumulator and the host's product agree entry by entry: each is
    ∑ₗ x[p, l] · w[l, q]. -/
theorem product_eq (D D' : DotDims SX SW SX) (hD : Cert.Gcn.IsPlain D) (hD' : Cert.Gcn.IsPlain D')
    (x : FVec Ideal SX .f32) (w : FVec Ideal SW .f32) :
    matmul D none x w (constant (F := Ideal) SX .f32 0x00000000#32) = Host.dotGeneral D' none x w := by
  funext i
  obtain ⟨p, q, rfl⟩ : ∃ (p : Fin 1024) (q : Fin 256), i = ix2 p q := ⟨i 0, i 1, eq_ix2 i⟩
  rw [Cert.Gcn.matmul_plain_apply D hD, Cert.Gcn.dotGeneral_plain_apply D' hD']

/-- The bias made a row and broadcast down the rows, at (p, q), is b[q]. -/
theorem bias_rows_apply (b : FVec Ideal SB .f32) (h1 : SB.ShapeCasts SB1) (h2 : SB1.Broadcasts SX) (p : Fin 1024) (q : Fin 256) :
    broadcastTo SX (shapeCast SB1 b h1) h2 (ix2 p q) = b (ix1 q) := by
  refine (broadcastTo_apply _ h2 (ix2 p q) (ix2 (0 : Fin 1) q) ?_).trans ?_
  · intro a
    match a with
    | ⟨0, _⟩ => rfl
    | ⟨1, _⟩ => rfl
  · refine shapeCast_apply b h1 (ix2 (0 : Fin 1) q) (ix1 q) ?_
    rw [Shape.rowMajor_val_one, Shape.rowMajor_val_two]
    show q.val = 0 * 256 + q.val
    omega

/-- The bias broadcast to one row along a new leading axis and then down the rows, at (p, q), is b[q]. -/
theorem bias_inDim_apply (b : FVec Ideal SB .f32) (h3 : SB.BroadcastsInDim SB1 ![1]) (h4 : SB1.BroadcastsInDim SX ![0, 1])
    (p : Fin 1024) (q : Fin 256) :
    broadcastInDim SX ![0, 1] h4 (broadcastInDim SB1 ![1] h3 b) (ix2 p q) = b (ix1 q) := by
  refine (broadcastInDim_apply _ h4 _ (ix2 p q) (ix2 (0 : Fin 1) q) ?_).trans ?_
  · intro a
    match a with
    | ⟨0, _⟩ => rfl
    | ⟨1, _⟩ => rfl
  · refine broadcastInDim_apply _ h3 b (ix2 (0 : Fin 1) q) (ix1 q) ?_
    intro a
    match a with
    | ⟨0, _⟩ => rfl

/-- So the two broadcasts of the bias are one array. -/
theorem bias_eq (b : FVec Ideal SB .f32) (h1 : SB.ShapeCasts SB1) (h2 : SB1.Broadcasts SX)
    (h3 : SB.BroadcastsInDim SB1 ![1]) (h4 : SB1.BroadcastsInDim SX ![0, 1]) :
    broadcastTo SX (shapeCast SB1 b h1) h2 = broadcastInDim SX ![0, 1] h4 (broadcastInDim SB1 ![1] h3 b) := by
  funext i
  obtain ⟨p, q, rfl⟩ : ∃ (p : Fin 1024) (q : Fin 256), i = ix2 p q := ⟨i 0, i 1, eq_ix2 i⟩
  rw [bias_rows_apply, bias_inDim_apply]

/-- The rectifier's zero: a scalar zero splat, or a rank-0 zero array broadcast; the same array. -/
theorem zero_eq (h : S0.BroadcastsInDim SX ![]) :
    broadcast SX (Scalar.ofBits (F := Ideal) .f32 0x00000000#32) = broadcastInDim SX ![] h (constant (F := Ideal) S0 .f32 0x00000000#32) := by
  funext i
  exact (broadcastInDim_apply ![] h (constant (F := Ideal) S0 .f32 0x00000000#32) i ix0 (fun a => a.elim0)).symm

/-- One layer without the rectifier: the two spellings are one function of (x, W, b). -/
theorem layer_eq (D D' : DotDims SX SW SX) (hD : Cert.Gcn.IsPlain D) (hD' : Cert.Gcn.IsPlain D')
    (x : FVec Ideal SX .f32) (wT : FVec Ideal SW .f32) (b : FVec Ideal SB .f32)
    (h1 : SB.ShapeCasts SB1) (h2 : SB1.Broadcasts SX) (h3 : SB.BroadcastsInDim SB1 ![1]) (h4 : SB1.BroadcastsInDim SX ![0, 1]) :
    addf (matmul D none x wT (constant (F := Ideal) SX .f32 0x00000000#32)) (broadcastTo SX (shapeCast SB1 b h1) h2)
      = addf (Host.dotGeneral D' none x wT) (broadcastInDim SX ![0, 1] h4 (broadcastInDim SB1 ![1] h3 b)) := by
  rw [product_eq D D' hD hD', bias_eq b h1 h2 h3 h4]

end Cert.Mlp

end
-- ==== Proof.Mlp.lean ====
/-
  The four-layer perceptron on the extended reals, x₁ = relu(x₀·W₁ᵀ + b₁), x₂ = relu(x₁·W₂ᵀ + b₂), x₃ = relu(x₂·W₃ᵀ + b₃),
  x₄ = x₃·W₄ᵀ + b₄, in the two spellings of its layers (the vector unit's and the host's), and that the two are one
  function of the activations, the four weights and the four biases.
-/
import proofs.«140502_j9680856285722_1_alg».proof.Proof.MlpLayer

noncomputable section

namespace Cert.Mlp

open Idealize.ShloMosaic Idealize.ShloMosaic.ValueIdx

variable (D D' : DotDims SX SW SX) (ht : SW.Transposes [1, 0] SW)
  (h1 : SB.ShapeCasts SB1) (h2 : SB1.Broadcasts SX) (h3 : SB.BroadcastsInDim SB1 ![1]) (h4 : SB1.BroadcastsInDim SX ![0, 1])
  (h0 : S0.BroadcastsInDim SX ![])

/-- x · Wᵀ + b with the vector unit's product. -/
def linK (x : FVec Ideal SX .f32) (W : FVec Ideal SW .f32) (b : FVec Ideal SB .f32) : FVec Ideal SX .f32 :=
  addf (matmul D none x (transpose SW [1, 0] W ht) (constant (F := Ideal) SX .f32 0x00000000#32)) (broadcastTo SX (shapeCast SB1 b h1) h2)

/-- x · Wᵀ + b with the host's product. -/
def linH (x : FVec Ideal SX .f32) (W : FVec Ideal SW .f32) (b : FVec Ideal SB .f32) : FVec Ideal SX .f32 :=
  addf (Host.dotGeneral D' none x (transpose SW [1, 0] W ht)) (broadcastInDim SX ![0, 1] h4 (broadcastInDim SB1 ![1] h3 b))

/-- max(y, 0) against a splat scalar zero. -/
def reluK (y : FVec Ideal SX .f32) : FVec Ideal SX .f32 :=
  maximumf y (broadcast SX (Scalar.ofBits (F := Ideal) .f32 0x00000000#32))

/-- max(y, 0) against a broadcast rank-0 zero. -/
def reluH (y : FVec Ideal SX .f32) : FVec Ideal SX .f32 :=
  maximumf y (broadcastInDim SX ![] h0 (constant (F := Ideal) S0 .f32 0x00000000#32))

theorem linK_eq_linH (hD : Cert.Gcn.IsPlain D) (hD' : Cert.Gcn.IsPlain D') (x : FVec Ideal SX .f32) (W : FVec Ideal SW .f32) (b : FVec Ideal SB .f32) :
    linK D ht h1 h2 x W b = linH D' ht h3 h4 x W b :=
  layer_eq D D' hD hD' x _ b h1 h2 h3 h4

theorem reluK_eq_reluH (y : FVec Ideal SX .f32) : reluK y = reluH h0 y := by
  unfold reluK reluH
  rw [zero_eq h0]

/-- The perceptron in the vector unit's spelling. -/
def mlpK (x : FVec Ideal SX .f32) (W1 : FVec Ideal SW .f32) (b1 : FVec Ideal SB .f32) (W2 : FVec Ideal SW .f32) (b2 : FVec Ideal SB .f32)
    (W3 : FVec Ideal SW .f32) (b3 : FVec Ideal SB .f32) (W4 : FVec Ideal SW .f32) (b4 : FVec Ideal SB .f32) : FVec Ideal SX .f32 :=
  linK D ht h1 h2 (reluK (linK D ht h1 h2 (reluK (linK D ht h1 h2 (reluK (linK D ht h1 h2 x W1 b1)) W2 b2)) W3 b3)) W4 b4

/-- The perceptron in the host's spelling. -/
def mlpH (x : FVec Ideal SX .f32) (W1 : FVec Ideal SW .f32) (b1 : FVec Ideal SB .f32) (W2 : FVec Ideal SW .f32) (b2 : FVec Ideal SB .f32)
    (W3 : FVec Ideal SW .f32) (b3 : FVec Ideal SB .f32) (W4 : FVec Ideal SW .f32) (b4 : FVec Ideal SB .f32) : FVec Ideal SX .f32 :=
  linH D' ht h3 h4 (reluH h0 (linH D' ht h3 h4 (reluH h0 (linH D' ht h3 h4 (reluH h0 (linH D' ht h3 h4 x W1 b1)) W2 b2)) W3 b3)) W4 b4

/-- Layer by layer the two spellings agree, so the two perceptrons are one function. -/
theorem mlpK_eq_mlpH (hD : Cert.Gcn.IsPlain D) (hD' : Cert.Gcn.IsPlain D')
    (x : FVec Ideal SX .f32) (W1 : FVec Ideal SW .f32) (b1 : FVec Ideal SB .f32) (W2 : FVec Ideal SW .f32) (b2 : FVec Ideal SB .f32)
    (W3 : FVec Ideal SW .f32) (b3 : FVec Ideal SB .f32) (W4 : FVec Ideal SW .f32) (b4 : FVec Ideal SB .f32) :
    mlpK D ht h1 h2 x W1 b1 W2 b2 W3 b3 W4 b4 = mlpH D' ht h3 h4 h0 x W1 b1 W2 b2 W3 b3 W4 b4 := by
  unfold mlpK mlpH
  simp only [linK_eq_linH D D' ht h1 h2 h3 h4 hD hD', reluK_eq_reluH h0]

end Cert.Mlp

end
-- ==== Proof.KernelPayload.lean ====
/-
  What the two kernel bodies compute from the blocks they load, on the extended reals.
  The first body, on the whole activations, weights and biases, is the four-layer perceptron.
  The second body, on a [1, 4096, 256] block of features and a [1, 256, 256] block of queries, stores at (0, n, q) the
  sum over the feature coordinate l of feature[0, n, l] · query[0, q, l]: the narrowing to bf16 is the identity on the
  extended reals, the transpose swaps the query block's two coordinates, and the product into the zero accumulator is
  the plain sum.
-/
import proofs.«140502_j9680856285722_1_alg».proof.Proof.Gen.KernelIdeal.Skeleton
import proofs.«140502_j9680856285722_1_alg».proof.Proof.Mlp
import Idealize.ShloMosaic.Lib.Pipeline.Value

noncomputable section

namespace Cert.KernelIdeal.Payload

open Idealize.ShloMosaic Idealize.ShloMosaic.ValueIdx Cert.KernelIdeal Cert.KernelIdeal.Gen

/-- The first body's product record has the plain pattern: rows × contraction by contraction × columns. -/
theorem plain0 : Cert.Gcn.IsPlain (M := 1024) (K := 256) (N := 256) dot_S1024x256_S256x256_S1024x256_1_0_0_1_n_n := ⟨rfl, rfl, rfl, rfl, rfl, rfl⟩

/-- So has the second body's. -/
theorem plain1 : Cert.Gcn.IsPlain (M := 4096) (K := 256) (N := 256) dot_S4096x256_S256x256_S4096x256_1_0_0_1_n_n := ⟨rfl, rfl, rfl, rfl, rfl, rfl⟩

/-- The first body's value is the perceptron, in the vector unit's spelling, of the nine blocks it loads. -/
theorem pay0_eq (x : Vec Ideal S1024x256 .f32) (W1 : Vec Ideal S256x256 .f32) (b1 : Vec Ideal S256 .f32) (W2 : Vec Ideal S256x256 .f32) (b2 : Vec Ideal S256 .f32)
    (W3 : Vec Ideal S256x256 .f32) (b3 : Vec Ideal S256 .f32) (W4 : Vec Ideal S256x256 .f32) (b4 : Vec Ideal S256 .f32) :
    k0_pay1 (F := Ideal) x W1 b1 W2 b2 W3 b3 W4 b4
      = Cert.Mlp.mlpK dot_S1024x256_S256x256_S1024x256_1_0_0_1_n_n transposes_S256x256_p1_0_S256x256 shapeCasts_S256_S1x256 broadcasts_S1x256_S1024x256
          x W1 b1 W2 b2 W3 b3 W4 b4 := rfl

/-- The second body's value at (z, n, q) of its [1, 4096, 256] block. -/
theorem pay1_apply (x0 : Vec Ideal S1x4096x256 .f32) (x1 : Vec Ideal S1x256x256 .f32) (z : Fin 1) (n : Fin 4096) (q : Fin 256) :
    k1_pay1 (F := Ideal) x0 x1 (ix3 z n q) = ∑ l : Fin 256, x0 (ix3 (0 : Fin 1) n l) * x1 (ix3 (0 : Fin 1) q l) := by
  unfold k1_pay1
  dsimp only
  refine (shapeCast_addUnit_apply ![4096, 256] _ _ (ix3 z n q)).trans ?_
  have e : (fun a : Fin 2 => (ix3 z n q) a.succ) = ix2 n q := funext fun a => by
    match a with
    | ⟨0, _⟩ => rfl
    | ⟨1, _⟩ => rfl
  rw [e, Cert.Gcn.matmul_plain_apply _ plain1]
  refine Finset.sum_congr rfl fun l _ => ?_
  have eL : (truncf (F := Ideal) .bf16 (shapeCast S4096x256 x0 shapeCasts_S1x4096x256_S4096x256) bitsLt_bf16_f32 (ix2 n l) : EReal) = (x0 (ix3 (0 : Fin 1) n l) : EReal) := by
    rw [truncf_apply]
    refine (shapeCast_dropUnit_apply ![4096, 256] x0 _ (ix2 n l)).trans (congrArg x0 (funext fun a => ?_))
    match a with
    | ⟨0, _⟩ => rfl
    | ⟨1, _⟩ => rfl
    | ⟨2, _⟩ => rfl
  have eR : (transpose S256x256 [1, 0] (truncf (F := Ideal) .bf16 (shapeCast S256x256 x1 shapeCasts_S1x256x256_S256x256) bitsLt_bf16_f32) transposes_S256x256_p1_0_S256x256 (ix2 l q) : EReal)
      = (x1 (ix3 (0 : Fin 1) q l) : EReal) := by
    refine (transpose_apply [1, 0] _ transposes_S256x256_p1_0_S256x256 (ix2 l q) (ix2 q l) (fun b => ?_)).trans ?_
    · match b with
      | ⟨0, _⟩ => rfl
      | ⟨1, _⟩ => rfl
    · rw [truncf_apply]
      refine (shapeCast_dropUnit_apply ![256, 256] x1 _ (ix2 q l)).trans (congrArg x1 (funext fun a => ?_))
      match a with
      | ⟨0, _⟩ => rfl
      | ⟨1, _⟩ => rfl
      | ⟨2, _⟩ => rfl
  rw [eL, eR]

end Cert.KernelIdeal.Payload

end
-- ==== Proof.LibBatchedDot.lean ====
/-
  A batched matrix product whose two operands both carry the contraction on their LAST axis: batch × rows × contraction
  against batch × columns × contraction, giving batch × rows × columns.  Read at one entry on the extended reals it is the
  plain sum, over the contraction coordinate, of the products of the two operands' entries in that batch.  Stated once for
  any extents and any dimension-number record of that pattern, for the host's product.
-/
import Idealize.ShloMosaic.Lib.ValueIdx
import Idealize.ShloMosaic.PureOps.Ideal.Laws

noncomputable section

namespace Cert.BatchedDot

open Idealize.ShloMosaic Idealize.ShloMosaic.ValueIdx

variable {B M N K : ℕ}

/-- The dimension numbers pair the two leading axes as the batch, keep the left operand's middle axis (rows) and the right
    operand's middle axis (columns), and contract the two trailing axes. -/
structure IsRowsByRows (D : DotDims ⟨3, ![B, M, K]⟩ ⟨3, ![B, N, K]⟩ ⟨3, ![B, M, N]⟩) : Prop where
  lc : D.lhsContracting = [2]
  rc : D.rhsContracting = [2]
  ln : D.lhsNonContracting = [1]
  rn : D.rhsNonContracting = [1]
  lb : D.lhsBatch = [0]
  rb : D.rhsBatch = [0]

/-- The sum over the one-axis contraction index is the sum over its coordinate, the left operand read at
    (batch, row, l) and the right at (batch, column, l). -/
theorem rowsByRows_sum {φ₁ φ₂ : FTy} (D : DotDims ⟨3, ![B, M, K]⟩ ⟨3, ![B, N, K]⟩ ⟨3, ![B, M, N]⟩) (hD : IsRowsByRows D)
    (X : FVec Ideal ⟨3, ![B, M, K]⟩ φ₁) (Y : FVec Ideal ⟨3, ![B, N, K]⟩ φ₂) (b : Fin B) (p : Fin M) (q : Fin N) :
    ∑ k : D.contr.Idx, X (D.lhsIdx (ix3 b p q) k) * Y (D.rhsIdx (ix3 b p q) k) = ∑ l : Fin K, X (ix3 b p l) * Y (ix3 b q l) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨3, ![B, M, K]⟩ ⟨3, ![B, N, K]⟩ ⟨3, ![B, M, N]⟩ := ⟨[2], [2], [1], [1], [0], [0], wf⟩ with hDdef
  rw [← Equiv.sum_comp (contrEquiv1 D K rfl rfl).symm]
  refine Finset.sum_congr rfl fun l _ => ?_
  have hk := contrEquiv1_symm_val D K rfl rfl l
  have l0 : ∀ (i : (⟨3, ![B, M, N]⟩ : Shape).Idx) (k : D.contr.Idx), (D.lhsIdx i k 0).val = (i 0).val := by
    intro i k
    unfold DotDims.lhsIdx
    rw [dif_pos (show (0 : Fin 3) ∈ ([0] : List (Fin 3)) by decide)]
    rfl
  have l1 : ∀ (i : (⟨3, ![B, M, N]⟩ : Shape).Idx) (k : D.contr.Idx), (D.lhsIdx i k 1).val = (i 1).val := by
    intro i k
    unfold DotDims.lhsIdx
    rw [dif_neg (show ¬(1 : Fin 3) ∈ ([0] : List (Fin 3)) by decide), dif_pos (show (1 : Fin 3) ∈ ([1] : List (Fin 3)) by decide)]
    rfl
  have l2 : ∀ (i : (⟨3, ![B, M, N]⟩ : Shape).Idx) (k : D.contr.Idx), (D.lhsIdx i k 2).val = (k ⟨0, Nat.one_pos⟩).val :=
    fun i k => D.lhsIdx_val_of_single rfl i k
  have r0 : ∀ (i : (⟨3, ![B, M, N]⟩ : Shape).Idx) (k : D.contr.Idx), (D.rhsIdx i k 0).val = (i 0).val := by
    intro i k
    unfold DotDims.rhsIdx
    rw [dif_pos (show (0 : Fin 3) ∈ ([0] : List (Fin 3)) by decide)]
    rfl
  have r1 : ∀ (i : (⟨3, ![B, M, N]⟩ : Shape).Idx) (k : D.contr.Idx), (D.rhsIdx i k 1).val = (i 2).val := by
    intro i k
    unfold DotDims.rhsIdx
    rw [dif_neg (show ¬(1 : Fin 3) ∈ ([0] : List (Fin 3)) by decide), dif_pos (show (1 : Fin 3) ∈ ([1] : List (Fin 3)) by decide)]
    rfl
  have r2 : ∀ (i : (⟨3, ![B, M, N]⟩ : Shape).Idx) (k : D.contr.Idx), (D.rhsIdx i k 2).val = (k ⟨0, Nat.one_pos⟩).val :=
    fun i k => D.rhsIdx_val_of_single rfl i k
  have el : D.lhsIdx (ix3 b p q) ((contrEquiv1 D K rfl rfl).symm l) = ix3 b p l := funext fun a => Fin.ext (by
    match a with
    | ⟨0, _⟩ => exact l0 _ _
    | ⟨1, _⟩ => exact l1 _ _
    | ⟨2, _⟩ => exact (l2 _ _).trans hk)
  have er : D.rhsIdx (ix3 b p q) ((contrEquiv1 D K rfl rfl).symm l) = ix3 b q l := funext fun a => Fin.ext (by
    match a with
    | ⟨0, _⟩ => exact r0 _ _
    | ⟨1, _⟩ => exact r1 _ _
    | ⟨2, _⟩ => exact (r2 _ _).trans hk)
  rw [el, er]

/-- The host's batched product, at entry (b, p, q). -/
theorem dotGeneral_rowsByRows_apply {φ₁ φ₂ : FTy} (D : DotDims ⟨3, ![B, M, K]⟩ ⟨3, ![B, N, K]⟩ ⟨3, ![B, M, N]⟩) (hD : IsRowsByRows D)
    (prec : Option ContractPrecision) (X : FVec Ideal ⟨3, ![B, M, K]⟩ φ₁) (Y : FVec Ideal ⟨3, ![B, N, K]⟩ φ₂)
    (b : Fin B) (p : Fin M) (q : Fin N) :
    Host.dotGeneral D prec X Y (ix3 b p q) = ∑ l : Fin K, X (ix3 b p l) * Y (ix3 b q l) := by
  simp only [Host.dotGeneral]
  rw [Ideal.dotGeneral_apply]
  exact rowsByRows_sum D hD X Y b p q

end Cert.BatchedDot

end
-- ==== Proof.KernelValue.lean ====
/-
  The value of the kernel program's result array, on the extended reals.
  Region 0 runs the perceptron body once, on whole arrays: every window's one block is its array, so the array the region
  leaves in its output is the perceptron of the launch arguments.  Two reshapes view that [1024, 256] array as
  [4, 256, 256] queries and the [262144, 256] features as [4, 65536, 256].  Region 1 runs on a 4 × 16 grid: point (b, t)
  loads rows 4096·t … 4096·t + 4095 of image b's features and all of image b's queries and writes back, at (0, n, q), the
  sum over l of feature[b, 4096·t + n, l] · query[b, q, l]; the sixty-four blocks tile the result, so the result array is
  the batched product, contracted on the last axes, of the two reshaped arrays.
-/
import proofs.«140502_j9680856285722_1_alg».proof.Proof.KernelRun
import proofs.«140502_j9680856285722_1_alg».proof.Proof.KernelPayload
import proofs.«140502_j9680856285722_1_alg».proof.Proof.LibBatchedDot
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section Regions
-- the buffer contents a region is entered with
variable (V : (c : Dev nD) → (b : Ref sig .tc) → Buf (Elt Ideal) ((c : Thread nD τ).loc b))

/-! ## Region 0: the perceptron, once, on whole arrays -/

/-- The activations's one block is the whole array: its block index is zero on every axis. -/
theorem blk0_0 (c : Dev nD) (t : Fin cfg0.N) : (iblk0 V c 0 t : Vec Ideal S1024x256 .f32) = V c main_arg0 := by
  have hi : win0_0.index t (0 : Fin 2) = 0 ∧ win0_0.index t (1 : Fin 2) = 0 :=
    (by decide +kernel : ∀ t : Fin grid0.N, win0_0.index t (0 : Fin 2) = 0 ∧ win0_0.index t (1 : Fin 2) = 0) t
  funext j
  unfold iblk0
  rw [View.read_apply]
  show V c main_arg0 (((cfg0.win 0).blk t).view.emb j) = V c main_arg0 j
  refine congrArg (V c main_arg0) (funext fun a => Fin.ext ?_)
  match a with
  | ⟨0, _⟩ => show win0_0.index t (0 : Fin 2) * 1024 + 1 * (j 0).val = (j 0).val; rw [hi.1]; omega
  | ⟨1, _⟩ => show win0_0.index t (1 : Fin 2) * 256 + 1 * (j 1).val = (j 1).val; rw [hi.2]; omega

/-- The first weight's one block is the whole array: its block index is zero on every axis. -/
theorem blk0_1 (c : Dev nD) (t : Fin cfg0.N) : (iblk0 V c 1 t : Vec Ideal S256x256 .f32) = V c main_arg4 := by
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext j
  unfold iblk0
  rw [View.read_apply]
  show V c main_arg4 (((cfg0.win 1).blk t).view.emb j) = V c main_arg4 j
  refine congrArg (V c main_arg4) (funext fun a => Fin.ext ?_)
  match a with
  | ⟨0, _⟩ => show win0_1.index t (0 : Fin 2) * 256 + 1 * (j 0).val = (j 0).val; rw [hi.1]; omega
  | ⟨1, _⟩ => show win0_1.index t (1 : Fin 2) * 256 + 1 * (j 1).val = (j 1).val; rw [hi.2]; omega

/-- The first bias's one block is the whole array: its block index is zero on every axis. -/
theorem blk0_2 (c : Dev nD) (t : Fin cfg0.N) : (iblk0 V c 2 t : Vec Ideal S256 .f32) = V c main_arg5 := by
  have hi : win0_2.index t (0 : Fin 1) = 0 :=
    (by decide +kernel : ∀ t : Fin grid0.N, win0_2.index t (0 : Fin 1) = 0) t
  funext j
  unfold iblk0
  rw [View.read_apply]
  show V c main_arg5 (((cfg0.win 2).blk t).view.emb j) = V c main_arg5 j
  refine congrArg (V c main_arg5) (funext fun a => Fin.ext ?_)
  match a with
  | ⟨0, _⟩ => show win0_2.index t (0 : Fin 1) * 256 + 1 * (j 0).val = (j 0).val; rw [hi]; omega

/-- The second weight's one block is the whole array: its block index is zero on every axis. -/
theorem blk0_3 (c : Dev nD) (t : Fin cfg0.N) : (iblk0 V c 3 t : Vec Ideal S256x256 .f32) = V c main_arg6 := by
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext j
  unfold iblk0
  rw [View.read_apply]
  show V c main_arg6 (((cfg0.win 3).blk t).view.emb j) = V c main_arg6 j
  refine congrArg (V c main_arg6) (funext fun a => Fin.ext ?_)
  match a with
  | ⟨0, _⟩ => show win0_3.index t (0 : Fin 2) * 256 + 1 * (j 0).val = (j 0).val; rw [hi.1]; omega
  | ⟨1, _⟩ => show win0_3.index t (1 : Fin 2) * 256 + 1 * (j 1).val = (j 1).val; rw [hi.2]; omega

/-- The second bias's one block is the whole array: its block index is zero on every axis. -/
theorem blk0_4 (c : Dev nD) (t : Fin cfg0.N) : (iblk0 V c 4 t : Vec Ideal S256 .f32) = V c main_arg7 := by
  have hi : win0_4.index t (0 : Fin 1) = 0 :=
    (by decide +kernel : ∀ t : Fin grid0.N, win0_4.index t (0 : Fin 1) = 0) t
  funext j
  unfold iblk0
  rw [View.read_apply]
  show V c main_arg7 (((cfg0.win 4).blk t).view.emb j) = V c main_arg7 j
  refine congrArg (V c main_arg7) (funext fun a => Fin.ext ?_)
  match a with
  | ⟨0, _⟩ => show win0_4.index t (0 : Fin 1) * 256 + 1 * (j 0).val = (j 0).val; rw [hi]; omega

/-- The third weight's one block is the whole array: its block index is zero on every axis. -/
theorem blk0_5 (c : Dev nD) (t : Fin cfg0.N) : (iblk0 V c 5 t : Vec Ideal S256x256 .f32) = V c main_arg8 := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  funext j
  unfold iblk0
  rw [View.read_apply]
  show V c main_arg8 (((cfg0.win 5).blk t).view.emb j) = V c main_arg8 j
  refine congrArg (V c main_arg8) (funext fun a => Fin.ext ?_)
  match a with
  | ⟨0, _⟩ => show win0_5.index t (0 : Fin 2) * 256 + 1 * (j 0).val = (j 0).val; rw [hi.1]; omega
  | ⟨1, _⟩ => show win0_5.index t (1 : Fin 2) * 256 + 1 * (j 1).val = (j 1).val; rw [hi.2]; omega

/-- The third bias's one block is the whole array: its block index is zero on every axis. -/
theorem blk0_6 (c : Dev nD) (t : Fin cfg0.N) : (iblk0 V c 6 t : Vec Ideal S256 .f32) = V c main_arg9 := by
  have hi : win0_6.index t (0 : Fin 1) = 0 :=
    (by decide +kernel : ∀ t : Fin grid0.N, win0_6.index t (0 : Fin 1) = 0) t
  funext j
  unfold iblk0
  rw [View.read_apply]
  show V c main_arg9 (((cfg0.win 6).blk t).view.emb j) = V c main_arg9 j
  refine congrArg (V c main_arg9) (funext fun a => Fin.ext ?_)
  match a with
  | ⟨0, _⟩ => show win0_6.index t (0 : Fin 1) * 256 + 1 * (j 0).val = (j 0).val; rw [hi]; omega

/-- The fourth weight's one block is the whole array: its block index is zero on every axis. -/
theorem blk0_7 (c : Dev nD) (t : Fin cfg0.N) : (iblk0 V c 7 t : Vec Ideal S256x256 .f32) = V c main_arg10 := by
  have hi : win0_7.index t (0 : Fin 2) = 0 ∧ win0_7.index t (1 : Fin 2) = 0 :=
    (by decide +kernel : ∀ t : Fin grid0.N, win0_7.index t (0 : Fin 2) = 0 ∧ win0_7.index t (1 : Fin 2) = 0) t
  funext j
  unfold iblk0
  rw [View.read_apply]
  show V c main_arg10 (((cfg0.win 7).blk t).view.emb j) = V c main_arg10 j
  refine congrArg (V c main_arg10) (funext fun a => Fin.ext ?_)
  match a with
  | ⟨0, _⟩ => show win0_7.index t (0 : Fin 2) * 256 + 1 * (j 0).val = (j 0).val; rw [hi.1]; omega
  | ⟨1, _⟩ => show win0_7.index t (1 : Fin 2) * 256 + 1 * (j 1).val = (j 1).val; rw [hi.2]; omega

/-- The fourth bias's one block is the whole array: its block index is zero on every axis. -/
theorem blk0_8 (c : Dev nD) (t : Fin cfg0.N) : (iblk0 V c 8 t : Vec Ideal S256 .f32) = V c main_arg11 := by
  have hi : win0_8.index t (0 : Fin 1) = 0 :=
    (by decide +kernel : ∀ t : Fin grid0.N, win0_8.index t (0 : Fin 1) = 0) t
  funext j
  unfold iblk0
  rw [View.read_apply]
  show V c main_arg11 (((cfg0.win 8).blk t).view.emb j) = V c main_arg11 j
  refine congrArg (V c main_arg11) (funext fun a => Fin.ext ?_)
  match a with
  | ⟨0, _⟩ => show win0_8.index t (0 : Fin 1) * 256 + 1 * (j 0).val = (j 0).val; rw [hi]; omega

/-- The perceptron of the nine arrays region 0 is entered with. -/
abbrev mlpOf (c : Dev nD) : Vec Ideal S1024x256 .f32 :=
  k0_pay1 (F := Ideal) (V c main_arg0) (V c main_arg4) (V c main_arg5) (V c main_arg6) (V c main_arg7) (V c main_arg8) (V c main_arg9) (V c main_arg10) (V c main_arg11)

/-- The output window's one block is the whole [1024, 256] array too. -/
theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- What the one point writes back is the perceptron, read through the (whole) output block. -/
theorem flushed0 (c : Dev nD) (t : Fin cfg0.N) :
    (dat0 V c).flushed 9 t = ((cfg0.win 9).blk t).view.read (Elt Ideal) (mlpOf V c) := by
  show (cfg0.win 9).cut (grid0.coords t) ((dat0 V c).after 9 t) = _
  rw [after0_9]
  unfold out0_9
  rw [View.canon_unit_zero hz2]
  simp only [View.ld_unit_zero (S := S1024x256) hz2, View.ld_unit_zero (S := S256x256) hz2, View.ld_unit_zero (S := S256) hz1]
  rw [blk0_0, blk0_1, blk0_2, blk0_3, blk0_4, blk0_5, blk0_6, blk0_7, blk0_8]
  obtain ⟨e0, e1⟩ := idx0_9 t
  funext j
  rw [View.read_apply]
  show mlpOf V c j = mlpOf V c (((cfg0.win 9).blk t).view.emb j)
  refine congrArg (mlpOf V c) (funext fun a => Fin.ext ?_)
  match a with
  | ⟨0, _⟩ => show (j 0).val = win0_9.index t (0 : Fin 2) * 1024 + 1 * (j 0).val; rw [e0]; omega
  | ⟨1, _⟩ => show (j 1).val = win0_9.index t (1 : Fin 2) * 256 + 1 * (j 1).val; rw [e1]; omega

/-- An index of the [1024, 256] array is in point t's block iff each coordinate is in the block's range on its axis. -/
theorem mem_blk0 (t : Fin cfg0.N) (i : S1024x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v0).slice (win0_9.rect t)).set ↔ _
  rw [View.set_slice_whole, Rect.mem_set_unit]
  exact Iff.rfl

/-- The one block covers every index of the [1024, 256] array. -/
theorem cover0 (i : S1024x256.Idx) : ∃ t : Fin cfg0.N, (cfg0.win 9).flush t = true ∧ i ∈ ((cfg0.win 9).blk t).view.set := by
  refine ⟨t0_0, flush0_9 t0_0, ?_⟩
  rw [mem_blk0]
  obtain ⟨e0, e1⟩ := idx0_9 t0_0
  have h0 : (i 0).val < 1024 := (i 0).isLt
  have h1 : (i 1).val < 256 := (i 1).isLt
  intro a
  match a with
  | ⟨0, _⟩ => show win0_9.index t0_0 (0 : Fin 2) * 1024 ≤ (i 0).val ∧ (i 0).val < win0_9.index t0_0 (0 : Fin 2) * 1024 + 1024; rw [e0]; omega
  | ⟨1, _⟩ => show win0_9.index t0_0 (1 : Fin 2) * 256 ≤ (i 1).val ∧ (i 1).val < win0_9.index t0_0 (1 : Fin 2) * 256 + 256; rw [e1]; omega

/-- So region 0 leaves the perceptron in its output array. -/
theorem arr0_final (c : Dev nD) : (dat0 V c).arrAt 9 cfg0.N = mlpOf V c :=
  (dat0 V c).arrAt_eq_of_cover 9 (mlpOf V c) (fun t _ => flushed0 V c t) cover0

/-! ## Region 1: the batched product, block by block -/

/-- The features and the queries as region 1 finds them. -/
abbrev featsOf (c : Dev nD) : FVec Ideal S4x65536x256 .f32 := V c main_v2
abbrev queriesOf (c : Dev nD) : FVec Ideal S4x256x256 .f32 := V c main_v1

/-- The printed index maps over the 4 × 16 grid: the feature block moves with the output block, the query block with its
    image only, and the output's block indices stay in their ranges. -/
theorem idx1 : ∀ t : Fin cfg1.N, win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (0 : Fin 3) < 4 ∧ win1_2.index t (1 : Fin 3) < 16 ∧ win1_2.index t (2 : Fin 3) = 0 :=
  (by decide +kernel : ∀ t : Fin grid1.N, win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (0 : Fin 3) < 4 ∧ win1_2.index t (1 : Fin 3) < 16 ∧ win1_2.index t (2 : Fin 3) = 0)

/-- Every (image, row tile) is some point's output block. -/
theorem idx1_onto : ∀ (q0 : Fin 4) (q1 : Fin 16), ∃ t : Fin cfg1.N, win1_2.index t = ![q0.val, q1.val, 0] :=
  (by decide +kernel : ∀ (q0 : Fin 4) (q1 : Fin 16), ∃ t : Fin grid1.N, win1_2.index t = ![q0.val, q1.val, 0])

/-- The feature block at point t, at (z, n, l), is the features at (image, 4096 · tile + n, l). -/
theorem blk1_0_apply (c : Dev nD) (t : Fin cfg1.N) (z : Fin 1) (n : Fin 4096) (l : Fin 256) (b : Fin 4) (r : Fin 65536)
    (hb : b.val = win1_2.index t (0 : Fin 3)) (hr : r.val = win1_2.index t (1 : Fin 3) * 4096 + n.val) :
    (iblk1 V c 0 t : Vec Ideal S1x4096x256 .f32) (ix3 z n l) = featsOf V c (ix3 b r l) := by
  obtain ⟨e0, e1, e2, -⟩ := idx1 t
  unfold iblk1
  rw [View.read_apply]
  show V c main_v2 (((cfg1.win 0).blk t).view.emb (ix3 z n l)) = V c main_v2 (ix3 b r l)
  refine congrArg (V c main_v2) (funext fun a => Fin.ext ?_)
  have hz : z.val = 0 := by have := z.isLt; omega
  match a with
  | ⟨0, _⟩ => show win1_0.index t (0 : Fin 3) * 1 + 1 * z.val = b.val; rw [e0, hb, hz]; omega
  | ⟨1, _⟩ => show win1_0.index t (1 : Fin 3) * 4096 + 1 * n.val = r.val; rw [e1, hr]; omega
  | ⟨2, _⟩ => show win1_0.index t (2 : Fin 3) * 256 + 1 * l.val = l.val; rw [e2]; omega

/-- The query block at point t, at (z, q, l), is the queries at (image, q, l). -/
theorem blk1_1_apply (c : Dev nD) (t : Fin cfg1.N) (z : Fin 1) (q : Fin 256) (l : Fin 256) (b : Fin 4)
    (hb : b.val = win1_2.index t (0 : Fin 3)) :
    (iblk1 V c 1 t : Vec Ideal S1x256x256 .f32) (ix3 z q l) = queriesOf V c (ix3 b q l) := by
  obtain ⟨-, -, -, e3, e4, e5, -⟩ := idx1 t
  unfold iblk1
  rw [View.read_apply]
  show V c main_v1 (((cfg1.win 1).blk t).view.emb (ix3 z q l)) = V c main_v1 (ix3 b q l)
  refine congrArg (V c main_v1) (funext fun a => Fin.ext ?_)
  have hz : z.val = 0 := by have := z.isLt; omega
  match a with
  | ⟨0, _⟩ => show win1_1.index t (0 : Fin 3) * 1 + 1 * z.val = b.val; rw [e3, hb, hz]; omega
  | ⟨1, _⟩ => show win1_1.index t (1 : Fin 3) * 256 + 1 * q.val = q.val; rw [e4]; omega
  | ⟨2, _⟩ => show win1_1.index t (2 : Fin 3) * 256 + 1 * l.val = l.val; rw [e5]; omega

variable (D : DotDims S4x65536x256 S4x256x256 S4x65536x256) (hD : Cert.BatchedDot.IsRowsByRows (B := 4) (M := 65536) (N := 256) (K := 256) D)

/-- The batched product of the features and the queries region 1 is entered with. -/
abbrev prodOf (c : Dev nD) : FVec Ideal S4x65536x256 .f32 := Host.dotGeneral (F := Ideal) (φ₁ := .f32) (φ₂ := .f32) D none (featsOf V c) (queriesOf V c)

include hD in
/-- What point t writes back is its block of the batched product. -/
theorem flushed1 (c : Dev nD) (t : Fin cfg1.N) :
    (dat1 V c).flushed 2 t = ((cfg1.win 2).blk t).view.read (Elt Ideal) (prodOf V D c) := by
  show (cfg1.win 2).cut (grid1.coords t) ((dat1 V c).after 2 t) = _
  rw [after1_2]
  unfold out1_2
  rw [View.canon_unit_zero hz3]
  simp only [View.ld_unit_zero (S := S1x4096x256) hz3, View.ld_unit_zero (S := S1x256x256) hz3]
  obtain ⟨-, -, -, -, -, -, lt0, lt1, e8⟩ := idx1 t
  funext j
  obtain ⟨z, n, q, rfl⟩ : ∃ (z : Fin 1) (n : Fin 4096) (q : Fin 256), j = ix3 z n q := ⟨j 0, j 1, j 2, eq_ix3 j⟩
  rw [View.read_apply]
  have hz : z.val = 0 := by have := z.isLt; omega
  have hn : n.val < 4096 := n.isLt
  obtain ⟨B, hB⟩ : ∃ B : Fin 4, B.val = win1_2.index t (0 : Fin 3) := ⟨⟨_, lt0⟩, rfl⟩
  obtain ⟨R, hR⟩ : ∃ R : Fin 65536, R.val = win1_2.index t (1 : Fin 3) * 4096 + n.val := ⟨⟨_, by omega⟩, rfl⟩
  have hemb : ((cfg1.win 2).blk t).view.emb (ix3 z n q) = ix3 B R q :=
    funext fun a => Fin.ext (by
      match a with
      | ⟨0, _⟩ => show win1_2.index t (0 : Fin 3) * 1 + 1 * z.val = B.val; rw [hz, hB]; omega
      | ⟨1, _⟩ => show win1_2.index t (1 : Fin 3) * 4096 + 1 * n.val = R.val; rw [hR]; omega
      | ⟨2, _⟩ => show win1_2.index t (2 : Fin 3) * 256 + 1 * q.val = q.val; rw [e8]; omega)
  show k1_pay1 (F := Ideal) (iblk1 V c 0 t) (iblk1 V c 1 t) (ix3 z n q) = prodOf V D c (((cfg1.win 2).blk t).view.emb (ix3 z n q))
  refine (Cert.KernelIdeal.Payload.pay1_apply (iblk1 V c 0 t) (iblk1 V c 1 t) z n q).trans ?_
  refine ((Finset.sum_congr rfl fun l _ => ?_).trans
    (Cert.BatchedDot.dotGeneral_rowsByRows_apply D hD none (featsOf V c) (queriesOf V c) B R q).symm).trans (congrArg (prodOf V D c) hemb.symm)
  exact congrArg₂ (· * ·) (blk1_0_apply V c t 0 n l B R hB hR) (blk1_1_apply V c t 0 q l B hB)

/-- An index of the [4, 65536, 256] array is in point t's block iff each coordinate is in the block's range on its axis. -/
theorem mem_blk1 (t : Fin cfg1.N) (i : S4x65536x256.Idx) :
    i ∈ ((cfg1.win 2).blk t).view.set ↔ ∀ a : Fin 3, win1_2.index t a * S1x4096x256.size a ≤ (i a).val ∧ (i a).val < win1_2.index t a * S1x4096x256.size a + S1x4096x256.size a := by
  show i ∈ ((View.whole main_v3).slice (win1_2.rect t)).set ↔ _
  rw [View.set_slice_whole, Rect.mem_set_unit]
  exact Iff.rfl

/-- The sixty-four blocks tile the [4, 65536, 256] array: index (b, r, q) is in the block of image b and row tile r / 4096. -/
theorem cover1 (i : S4x65536x256.Idx) : ∃ t : Fin cfg1.N, (cfg1.win 2).flush t = true ∧ i ∈ ((cfg1.win 2).blk t).view.set := by
  have h0 : (i 0).val < 4 := (i 0).isLt
  have h1 : (i 1).val < 65536 := (i 1).isLt
  have h2 : (i 2).val < 256 := (i 2).isLt
  obtain ⟨t, ht⟩ := idx1_onto ⟨(i 0).val, h0⟩ ⟨(i 1).val / 4096, by omega⟩
  have q0 : win1_2.index t (0 : Fin 3) = (i 0).val := congrFun ht 0
  have q1 : win1_2.index t (1 : Fin 3) = (i 1).val / 4096 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 256 ≤ (i 2).val ∧ (i 2).val < win1_2.index t (2 : Fin 3) * 256 + 256; omega

include hD in
/-- So region 1 leaves the batched product in its output array. -/
theorem arr1_final (c : Dev nD) : (dat1 V c).arrAt 2 cfg1.N = prodOf V D c :=
  (dat1 V c).arrAt_eq_of_cover 2 (prodOf V D c) (fun t _ => flushed1 V D hD c t) cover1

end Regions

/-! ## The run: the result array through the two regions and the reshapes between them -/

variable (m : (ℓ : Loc nD τ sig) → Buf (Elt Ideal) ℓ) (ρ : Dev nD → PrngReg)

/-- The perceptron of the launch arguments. -/
abbrev mlpArgs (c : Dev nD) : Vec Ideal S1024x256 .f32 :=
  k0_pay1 (F := Ideal) (m ((c : Thread nD τ).loc main_arg0)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- After region 0 its output array holds the perceptron of the launch arguments. -/
theorem W1_main_v0 (c : Dev nD) : (W1 m ρ c (Proc.devRef .tc main_v0) : Vec Ideal S1024x256 .f32) = mlpArgs m c :=
  (W1_arr m ρ c 9).trans (arr0_final (V0 m ρ) c)

/-- Region 0 does not touch the features. -/
theorem W1_main_arg1 (c : Dev nD) : (W1 m ρ c (Proc.devRef .tc main_arg1) : Vec Ideal S262144x256 .f32) = m ((c : Thread nD τ).loc main_arg1) :=
  W1_of_ne m ρ c main_arg1 (by decide)

/-- Region 1 is entered with the queries: the perceptron's output viewed [4, 256, 256]. -/
theorem V2_main_v1 (c : Dev nD) : (V2 m ρ c main_v1 : Vec Ideal S4x256x256 .f32)
    = shapeCast S4x256x256 (mlpArgs m c) shapeCasts_S1024x256_S4x256x256 := by
  have e : (V2 m ρ c main_v1 : Vec Ideal S4x256x256 .f32)
      = shapeCast S4x256x256 (W1 m ρ c (Proc.devRef .tc main_v0) : Vec Ideal S1024x256 .f32) shapeCasts_S1024x256_S4x256x256 := by
    show StableHlo.after hostOps1 (W1 m ρ c) (Proc.devRef .tc main_v1) = _
    after_results
    rfl
  exact e.trans (congrArg (fun X : Vec Ideal S1024x256 .f32 => shapeCast S4x256x256 X shapeCasts_S1024x256_S4x256x256) (W1_main_v0 m ρ c))

/-- … and with the features viewed [4, 65536, 256]. -/
theorem V2_main_v2 (c : Dev nD) : (V2 m ρ c main_v2 : Vec Ideal S4x65536x256 .f32)
    = shapeCast S4x65536x256 (m ((c : Thread nD τ).loc main_arg1) : Vec Ideal S262144x256 .f32) shapeCasts_S262144x256_S4x65536x256 := by
  have e : (V2 m ρ c main_v2 : Vec Ideal S4x65536x256 .f32)
      = shapeCast S4x65536x256 (W1 m ρ c (Proc.devRef .tc main_arg1) : Vec Ideal S262144x256 .f32) shapeCasts_S262144x256_S4x65536x256 := by
    show StableHlo.after hostOps1 (W1 m ρ c) (Proc.devRef .tc main_v2) = _
    after_results
    rfl
  exact e.trans (congrArg (fun X : Vec Ideal S262144x256 .f32 => shapeCast S4x65536x256 X shapeCasts_S262144x256_S4x65536x256) (W1_main_arg1 m ρ c))

variable (D : DotDims S4x65536x256 S4x256x256 S4x65536x256) (hD : Cert.BatchedDot.IsRowsByRows (B := 4) (M := 65536) (N := 256) (K := 256) D)

/-- The program's result: the batched product of the reshaped features with the reshaped perceptron output. -/
abbrev result (c : Dev nD) : FVec Ideal S4x65536x256 .f32 :=
  Host.dotGeneral (F := Ideal) (φ₁ := .f32) (φ₂ := .f32) D none
    (shapeCast S4x65536x256 (m ((c : Thread nD τ).loc main_arg1) : FVec Ideal S262144x256 .f32) shapeCasts_S262144x256_S4x65536x256)
    (shapeCast S4x256x256 (mlpArgs m c : FVec Ideal S1024x256 .f32) shapeCasts_S1024x256_S4x256x256)

include hD in
/-- After region 1 the result array holds it. -/
theorem W3_main_v3 (c : Dev nD) : (W3 m ρ c (Proc.devRef .tc main_v3) : Vec Ideal S4x65536x256 .f32) = result m D c :=
  ((W3_arr m ρ c 2).trans (arr1_final (V2 m ρ) D hD c)).trans
    (congrArg₂ (fun (X : FVec Ideal S4x65536x256 .f32) (Y : FVec Ideal S4x256x256 .f32) => Host.dotGeneral (F := Ideal) (φ₁ := .f32) (φ₂ := .f32) D none X Y) (V2_main_v2 m ρ c) (V2_main_v1 m ρ c))

include hD in
/-- The run, read: every weakly fair execution terminates without a fault with the result array at the batched product
    and the arguments as launched. -/
theorem run : θ_run defs (onTc (τ := τ) (main (F := Ideal))) ⟨m, fun _ => 0, ρ⟩ (fun r => ∀ c : Dev nD,
      r.2.mem ((c.tc : Thread nD τ).loc main_v3) = result m D c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W3_main_v3 m ρ D hD c), (h c).2⟩) (run_result m ρ)

end Cert.KernelIdeal.Val

end
-- ==== Proof.RefValue.lean ====
/-
  The reference program's result on the extended reals: the batched product, contracted on the last axes, of the features
  viewed [4, 65536, 256] with the perceptron's output viewed [4, 256, 256] — the perceptron in the host's spelling of its
  layers.  This is the reference's run with its composed term folded back into the perceptron's definition.
-/
import proofs.«140502_j9680856285722_1_alg».proof.Proof.Gen.ReferenceIdeal.Run
import proofs.«140502_j9680856285722_1_alg».proof.Proof.Mlp
import proofs.«140502_j9680856285722_1_alg».proof.Proof.LibBatchedDot

noncomputable section

namespace Cert.ReferenceIdeal.RefValue

open Cert.ReferenceIdeal Cert.ReferenceIdeal.Gen Idealize.ShloMosaic Idealize.ShloMosaic.TcCoe Idealize.SL.Sem

/-- The layers' product record has the plain pattern: rows × contraction by contraction × columns. -/
theorem plainR : Cert.Gcn.IsPlain (M := 1024) (K := 256) (N := 256) dot_S1024x256_S256x256_S1024x256_1_0_0_1_n_n := ⟨rfl, rfl, rfl, rfl, rfl, rfl⟩

/-- The last product pairs the images, keeps the feature rows and the query rows, and contracts the trailing axes. -/
theorem rowsR : Cert.BatchedDot.IsRowsByRows (B := 4) (M := 65536) (N := 256) (K := 256) dot_S4x65536x256_S4x256x256_S4x65536x256_2_2_1_1_0_0 :=
  ⟨rfl, rfl, rfl, rfl, rfl, rfl⟩

/-- The perceptron of the reference's arguments, in the host's spelling. -/
abbrev mlpRef (x : FVec Ideal S1024x256 .f32) (W1 : FVec Ideal S256x256 .f32) (b1 : FVec Ideal S256 .f32) (W2 : FVec Ideal S256x256 .f32) (b2 : FVec Ideal S256 .f32)
    (W3 : FVec Ideal S256x256 .f32) (b3 : FVec Ideal S256 .f32) (W4 : FVec Ideal S256x256 .f32) (b4 : FVec Ideal S256 .f32) : FVec Ideal S1024x256 .f32 :=
  Cert.Mlp.mlpH dot_S1024x256_S256x256_S1024x256_1_0_0_1_n_n transposes_S256x256_S256x256_1_0 bcast_S256_S1x256_1 bcast_S1x256_S1024x256_0_1 bcast_S_S1024x256
    x W1 b1 W2 b2 W3 b3 W4 b4

/-- The reference's result as a function of the ten arrays it reads. -/
abbrev resultOf (f : FVec Ideal S262144x256 .f32) (x : FVec Ideal S1024x256 .f32) (W1 : FVec Ideal S256x256 .f32) (b1 : FVec Ideal S256 .f32)
    (W2 : FVec Ideal S256x256 .f32) (b2 : FVec Ideal S256 .f32) (W3 : FVec Ideal S256x256 .f32) (b3 : FVec Ideal S256 .f32)
    (W4 : FVec Ideal S256x256 .f32) (b4 : FVec Ideal S256 .f32) : FVec Ideal S4x65536x256 .f32 :=
  Host.dotGeneral dot_S4x65536x256_S4x256x256_S4x65536x256_2_2_1_1_0_0 none
    (shapeCast S4x65536x256 f shapeCasts_S262144x256_S4x65536x256)
    (shapeCast S4x256x256 (mlpRef x W1 b1 W2 b2 W3 b3 W4 b4) shapeCasts_S1024x256_S4x256x256)

variable (m : (ℓ : Loc nD τ sig) → Buf (Elt Ideal) ℓ) (ρ : Dev nD → PrngReg)

/-- The reference's run, read: every weakly fair execution terminates without a fault with the result array at that
    function of the arguments and the arguments unchanged (the generated run's composed term is this one, unfolded). -/
theorem run : θ_run defs (onTc (τ := τ) (main (F := Ideal))) ⟨m, fun _ => 0, ρ⟩ fun r => ∀ c : Dev nD,
      r.2.mem ((c.tc : Thread nD τ).loc main_v25)
          = resultOf (m ((c.tc : Thread nD τ).loc main_arg1)) (m ((c.tc : Thread nD τ).loc main_arg0)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans rfl, (h c).2⟩) (Cert.ReferenceIdeal.Value.run (F := Ideal) m ρ)

end Cert.ReferenceIdeal.RefValue

end
-- ==== Proof.lean ====
/-
  The certificate: a four-layer perceptron on [1024, 256] queries followed by, per image, the product of the image's
  [65536, 256] features with the transposed [256, 256] queries, computed by two kernels against jnp's matmuls and einsum.
  On the extended reals both programs compute out[b, n, q] = ∑ₗ feat[b, n, l] · x₄[b, q, l] with
  x₄ = (relu ∘ lin₃ ∘ relu ∘ lin₂ ∘ relu ∘ lin₁ then lin₄) of the queries, linₖ(x) = x · Wₖᵀ + bₖ: the kernel's product into a
  zero accumulator and the host's product are the same sum over the contracted coordinate, the two ways of broadcasting a
  bias read the same entry, the narrowing to bf16 is the identity, and the sixty-four output blocks tile the result.
  The three runs terminate without a fault and keep their arguments; the idealization rewrote nothing.
-/
import proofs.«140502_j9680856285722_1_alg».proof.Defs
import proofs.«140502_j9680856285722_1_alg».proof.Proof.Gen.Kernel
import proofs.«140502_j9680856285722_1_alg».proof.Proof.Gen.Kernel.Skeleton
import proofs.«140502_j9680856285722_1_alg».proof.Proof.Gen.Kernel.Launch
import proofs.«140502_j9680856285722_1_alg».proof.Proof.Gen.Kernel.Points
import proofs.«140502_j9680856285722_1_alg».proof.Proof.Gen.Kernel.Frame
import proofs.«140502_j9680856285722_1_alg».proof.Proof.Gen.KernelIdeal
import proofs.«140502_j9680856285722_1_alg».proof.Proof.Gen.KernelIdeal.Skeleton
import proofs.«140502_j9680856285722_1_alg».proof.Proof.Gen.KernelIdeal.Launch
import proofs.«140502_j9680856285722_1_alg».proof.Proof.Gen.KernelIdeal.Points
import proofs.«140502_j9680856285722_1_alg».proof.Proof.Gen.KernelIdeal.Frame
import proofs.«140502_j9680856285722_1_alg».proof.Proof.Gen.ReferenceIdeal
import proofs.«140502_j9680856285722_1_alg».proof.Proof.Gen.Pre_finite_inputs
import proofs.«140502_j9680856285722_1_alg».proof.Proof.KernelValue
import proofs.«140502_j9680856285722_1_alg».proof.Proof.RefValue
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The perceptron as the first kernel body computes it is the perceptron as the reference's host operations compute it. -/
theorem mlp_bridge (x : FVec Ideal Cert.Mlp.SX .f32) (W1 : FVec Ideal Cert.Mlp.SW .f32) (b1 : FVec Ideal Cert.Mlp.SB .f32)
    (W2 : FVec Ideal Cert.Mlp.SW .f32) (b2 : FVec Ideal Cert.Mlp.SB .f32) (W3 : FVec Ideal Cert.Mlp.SW .f32) (b3 : FVec Ideal Cert.Mlp.SB .f32)
    (W4 : FVec Ideal Cert.Mlp.SW .f32) (b4 : FVec Ideal Cert.Mlp.SB .f32) :
    Cert.KernelIdeal.Gen.k0_pay1 (F := Ideal) x W1 b1 W2 b2 W3 b3 W4 b4 = Cert.ReferenceIdeal.RefValue.mlpRef x W1 b1 W2 b2 W3 b3 W4 b4 :=
  (Cert.KernelIdeal.Payload.pay0_eq x W1 b1 W2 b2 W3 b3 W4 b4).trans
    (Cert.Mlp.mlpK_eq_mlpH _ _ _ _ _ _ _ _ Cert.KernelIdeal.Payload.plain0 Cert.ReferenceIdeal.RefValue.plainR x W1 b1 W2 b2 W3 b3 W4 b4)

/-- From memories agreeing on the arguments both idealized programs end with the same result array: the batched
    product of the reshaped features with the reshaped perceptron output. -/
theorem algebraic : Cert.algebraic_KernelIdeal_ReferenceIdeal := by
  intro m ρ m' ρ' _ hagree
  refine ⟨fun c => Cert.KernelIdeal.Val.result m Cert.ReferenceIdeal.dot_S4x65536x256_S4x256x256_S4x65536x256_2_2_1_1_0_0 c,
    Cert.KernelIdeal.Val.run m ρ _ Cert.ReferenceIdeal.RefValue.rowsR, ?_⟩
  refine (θ_run Cert.ReferenceIdeal.defs _ _).mono (fun _ h c => ⟨(h c).1.trans ?_, (h c).2⟩) (Cert.ReferenceIdeal.RefValue.run m' ρ')
  obtain ⟨e0, e1, -, -, e4, e5, e6, e7, e8, e9, e10, e11⟩ := hagree c
  rw [e0, e1, e4, e5, e6, e7, e8, e9, e10, e11]
  exact congrArg (fun X : FVec Ideal Cert.Mlp.SX .f32 =>
      Host.dotGeneral Cert.ReferenceIdeal.dot_S4x65536x256_S4x256x256_S4x65536x256_2_2_1_1_0_0 none
        (shapeCast Cert.ReferenceIdeal.S4x65536x256 (m ((c.tc : Thread Cert.KernelIdeal.nD Cert.KernelIdeal.τ).loc Cert.KernelIdeal.main_arg1) : FVec Ideal Cert.ReferenceIdeal.S262144x256 .f32) Cert.ReferenceIdeal.Gen.shapeCasts_S262144x256_S4x65536x256)
        (shapeCast Cert.ReferenceIdeal.S4x256x256 X Cert.ReferenceIdeal.Gen.shapeCasts_S1024x256_S4x256x256))
    (mlp_bridge _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
